-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512 .f32) (main_arg16 : FVec F S512 .f32) (main_arg17 : FVec F S512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_v48 main_v49 main_v50

def fn_part1 {F : FTy → Type} [FloatOps F] (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩

abbrev nBuf : Space → Nat
  | .hbm => 29
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x2048, .f32⟩
  | .hbm, ⟨20, _⟩ => ⟨S512x2048, .bf16⟩
  | .hbm, ⟨21, _⟩ => ⟨S512x2048, .f32⟩
  | .hbm, ⟨22, _⟩ => ⟨S512x2048, .bf16⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S16384x512, .f32⟩
  | .hbm, ⟨28, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x2048, .f32⟩
  | .hbm, ⟨20, _⟩ => ⟨S512x2048, .f32⟩
  | .hbm, ⟨21, _⟩ => ⟨S2048, .f32⟩
  | .hbm, ⟨22, _⟩ => ⟨S2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.KernelFrame.lean ====
/-
  The FRAME of the LSTM-cell program: every weakly fair execution terminates, nothing faults, and the nineteen
  argument arrays end as they were launched.

  @main is eight host operations (two fused weight matrices, each four 512 × 512 matrices side by side and then
  narrowed; two fused biases, added and reshaped to a row) followed by ONE tiled region over 32 grid points. None of the
  host operations writes an argument, so the region finds every argument as launched (`V_kept`). At grid point `t` the
  body is handed, in its staging buffers, block `t` (rows 512·t … 512·t + 511) of `x`, `h0`, `c0`, the two whole fused
  weight matrices and the bias row (fetched once, at the first point: the block index never moves, so the buffers
  still hold them at every later point), and two output buffers at anything. It loads the six inputs whole, and stores
  ONE whole-buffer value into each output: the new hidden state into the first, the new cell state into the second.
  Each output buffer therefore ends at that stored value whatever it held before, and the inputs' buffers are untouched:
  this is the body's triple (`sound_kernel`), stated for any float instance since nothing in it depends on what the
  arithmetic computes. The proof data name what each buffer holds after each point; the launch theorem for a
  body that keeps no state between points then gives the run, and the frame claim reads the argument arrays off its
  post: an argument the region stages as an input is never written back, every other argument bypasses the region.
-/
import proofs.«117173_j56435870269511_1_alg».proof.Proof.Gen.Kernel.Launch
import proofs.«117173_j56435870269511_1_alg».proof.Proof.Gen.Kernel.Skeleton
import proofs.«117173_j56435870269511_1_alg».proof.Proof.Gen.Kernel.Points
import Idealize.ShloMosaic.Lib.Pipeline.FrameBody
import Idealize.ShloMosaic.Lib.Ring
import Idealize.ShloMosaic.Lib.Tactic

-- membership of an index in a 512 × 2048 rectangle is checked by structural recursion on the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the eight host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight results of the host operations is found by the region as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (unfetched, the block index has not moved), for any proof data over the entry contents that leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not (unfetched, the block index has not moved), for any proof data over the entry contents that leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not (unfetched, the block index has not moved), for any proof data over the entry contents that leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or not (unfetched, the block index has not moved), for any proof data over the entry contents that leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or not (unfetched, the block index has not moved), for any proof data over the entry contents that leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there
    or not (unfetched, the block index has not moved), for any proof data over the entry contents that leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The frame claim's post from a run that ends with every window's array at what the proof data compute and every
    bypassing buffer as the region found it: `x`, `h0`, `c0` are inputs' arrays (never written back), the sixteen
    weight and bias arguments bypass the region; each is then as launched by `V_kept`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: three whole-buffer rectangles -/

abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-! ## What the body leaves in each output buffer -/

/-- The first output's buffer after the body: its one whole-buffer store of the new hidden state. -/
def outH (x0 x1 x2 : Vec F S512x512 .f32) (x3 x4 : Vec F S512x2048 .bf16) (x5 : Vec F S1x2048 .f32) : Vec F S512x512 .f32 :=
  View.canon [⟨rA, k0_pay3 (View.ld x0 rA) (View.ld x1 rA) (View.ld x3 rW) (View.ld x4 rW) (View.ld x5 rB) (View.ld x2 rA)⟩]

/-- The second output's buffer after the body: its one whole-buffer store of the new cell state. -/
def outC (x0 x1 x2 : Vec F S512x512 .f32) (x3 x4 : Vec F S512x2048 .bf16) (x5 : Vec F S1x2048 .f32) : Vec F S512x512 .f32 :=
  View.canon [⟨rA, k0_pay2 (View.ld x0 rA) (View.ld x1 rA) (View.ld x3 rW) (View.ld x4 rW) (View.ld x5 rB) (View.ld x2 rA)⟩]

/-- One whole-buffer store covers the buffer. -/
theorem cover_out (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- The body on whole staging memrefs, the six inputs' at read contents `x0 … x5` and the two outputs' at anything, runs
    to a state holding the inputs' as they were and the outputs' at `outH` and `outC` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 x1 x2 : Vec F S512x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data on core `c`: the arrays as the region finds them; after the body at point `t` each input's buffer at its
    block and each output's at `outH` / `outC` of the six input blocks; no state kept between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.KernelIdealFrame.lean ====
/-
  The FRAME of the LSTM-cell program: every weakly fair execution terminates, nothing faults, and the nineteen
  argument arrays end as they were launched.

  @main is eight host operations (two fused weight matrices, each four 512 × 512 matrices side by side and then
  narrowed; two fused biases, added and reshaped to a row) followed by ONE tiled region over 32 grid points. None of the
  host operations writes an argument, so the region finds every argument as launched (`V_kept`). At grid point `t` the
  body is handed, in its staging buffers, block `t` (rows 512·t … 512·t + 511) of `x`, `h0`, `c0`, the two whole fused
  weight matrices and the bias row (fetched once, at the first point: the block index never moves, so the buffers
  still hold them at every later point), and two output buffers at anything. It loads the six inputs whole, and stores
  ONE whole-buffer value into each output: the new hidden state into the first, the new cell state into the second.
  Each output buffer therefore ends at that stored value whatever it held before, and the inputs' buffers are untouched:
  this is the body's triple (`sound_kernel`), stated for any float instance since nothing in it depends on what the
  arithmetic computes. The proof data name what each buffer holds after each point; the launch theorem for a
  body that keeps no state between points then gives the run, and the frame claim reads the argument arrays off its
  post: an argument the region stages as an input is never written back, every other argument bypasses the region.
-/
import proofs.«117173_j56435870269511_1_alg».proof.Proof.Gen.KernelIdeal.Launch
import proofs.«117173_j56435870269511_1_alg».proof.Proof.Gen.KernelIdeal.Skeleton
import proofs.«117173_j56435870269511_1_alg».proof.Proof.Gen.KernelIdeal.Points
import Idealize.ShloMosaic.Lib.Pipeline.FrameBody
import Idealize.ShloMosaic.Lib.Ring
import Idealize.ShloMosaic.Lib.Tactic

-- membership of an index in a 512 × 2048 rectangle is checked by structural recursion on the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the eight host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight results of the host operations is found by the region as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (unfetched, the block index has not moved), for any proof data over the entry contents that leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not (unfetched, the block index has not moved), for any proof data over the entry contents that leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not (unfetched, the block index has not moved), for any proof data over the entry contents that leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or not (unfetched, the block index has not moved), for any proof data over the entry contents that leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or not (unfetched, the block index has not moved), for any proof data over the entry contents that leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there
    or not (unfetched, the block index has not moved), for any proof data over the entry contents that leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The frame claim's post from a run that ends with every window's array at what the proof data compute and every
    bypassing buffer as the region found it: `x`, `h0`, `c0` are inputs' arrays (never written back), the sixteen
    weight and bias arguments bypass the region; each is then as launched by `V_kept`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: three whole-buffer rectangles -/

abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-! ## What the body leaves in each output buffer -/

/-- The first output's buffer after the body: its one whole-buffer store of the new hidden state. -/
def outH (x0 x1 x2 : Vec F S512x512 .f32) (x3 x4 : Vec F S512x2048 .bf16) (x5 : Vec F S1x2048 .f32) : Vec F S512x512 .f32 :=
  View.canon [⟨rA, k0_pay3 (View.ld x0 rA) (View.ld x1 rA) (View.ld x3 rW) (View.ld x4 rW) (View.ld x5 rB) (View.ld x2 rA)⟩]

/-- The second output's buffer after the body: its one whole-buffer store of the new cell state. -/
def outC (x0 x1 x2 : Vec F S512x512 .f32) (x3 x4 : Vec F S512x2048 .bf16) (x5 : Vec F S1x2048 .f32) : Vec F S512x512 .f32 :=
  View.canon [⟨rA, k0_pay2 (View.ld x0 rA) (View.ld x1 rA) (View.ld x3 rW) (View.ld x4 rW) (View.ld x5 rB) (View.ld x2 rA)⟩]

/-- One whole-buffer store covers the buffer. -/
theorem cover_out (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- The body on whole staging memrefs, the six inputs' at read contents `x0 … x5` and the two outputs' at anything, runs
    to a state holding the inputs' as they were and the outputs' at `outH` and `outC` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 x1 x2 : Vec F S512x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data on core `c`: the arrays as the region finds them; after the body at point `t` each input's buffer at its
    block and each output's at `outH` / `outC` of the six input blocks; no state kept between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.Spec.lean ====
/-
  The LSTM cell as ONE function of the argument arrays, index by index, over the extended reals.

  Operands: the batch arrays `x`, `h0`, `c0` (16384 × 512), the two fused weight matrices `Wi`, `Wh`
  (512 × 2048: the four gates' 512 × 512 matrices side by side along the second axis) and the two fused
  biases `bi`, `bh` (2048: the four gates' biases end to end). Column `o + j` of the fused axis is column `j`
  of the gate whose block starts at `o` (0: input gate, 512: forget gate, 1024: cell candidate, 1536: output gate).

    z[r, n]  = (Σ_k x[r, k] · Wi[k, n] + Σ_k h0[r, k] · Wh[k, n]) + (bi[n] + bh[n])
    c'[r, j] = σ(z[r, 512 + j]) · c0[r, j] + σ(z[r, j]) · tanh(z[r, 1024 + j])
    h'[r, j] = σ(z[r, 1536 + j]) · tanh(c'[r, j])

  with σ the logistic function 1 / (1 + e^(−t)) and every operation the extended reals' own. The bias sum is grouped
  as ONE vector added to the two products (the order in which the tiled computation adds it); adding the two biases one
  after the other instead gives the same number, by associativity of addition (`preact_assoc`).
-/
import Idealize.ShloMosaic.PureOps.Ideal
import Idealize.ShloMosaic.Lib.ValueIdx

noncomputable section

open scoped BigOperators

namespace Cert.LstmSpec

open Idealize.ShloMosaic Idealize.ShloMosaic.ValueIdx

/-- Batch × hidden. -/
abbrev SB : Shape := ⟨2, ![16384, 512]⟩
/-- A fused weight matrix: input × (4 · hidden). -/
abbrev SW : Shape := ⟨2, ![512, 2048]⟩
/-- A fused bias: 4 · hidden. -/
abbrev SV : Shape := ⟨1, ![2048]⟩

/-- Column `j` of the gate whose block of the fused axis starts at `o`. -/
abbrev col (o : Nat) (ho : o + 512 ≤ 2048) (j : Fin 512) : Fin 2048 := ⟨o + j.val, by have := j.isLt; omega⟩

section
variable (x h0 c0 : SB.Idx → EReal) (Wi Wh : SW.Idx → EReal) (bi bh : SV.Idx → EReal)

/-- The two matrix products of row `r` at fused column `n`, added. -/
def prods (r : Fin 16384) (n : Fin 2048) : EReal :=
  (∑ k : Fin 512, x (ix2 r k) * Wi (ix2 k n)) + (∑ k : Fin 512, h0 (ix2 r k) * Wh (ix2 k n))

/-- The gates' pre-activation: the products plus the SUM of the two biases. -/
def preact (r : Fin 16384) (n : Fin 2048) : EReal :=
  prods x h0 Wi Wh r n + (bi (ix1 n) + bh (ix1 n))

/-- Adding the biases one after the other is the same number. -/
theorem preact_assoc (r : Fin 16384) (n : Fin 2048) :
    prods x h0 Wi Wh r n + bi (ix1 n) + bh (ix1 n) = preact x h0 Wi Wh bi bh r n := by
  unfold preact; exact add_assoc _ _ _

/-- The new cell state at row `r`, hidden unit `j`. -/
def cellNew (r : Fin 16384) (j : Fin 512) : EReal :=
  Ideal.logistic (preact x h0 Wi Wh bi bh r (col 512 (by decide) j)) * c0 (ix2 r j)
    + Ideal.logistic (preact x h0 Wi Wh bi bh r (col 0 (by decide) j)) * Ideal.tanh (preact x h0 Wi Wh bi bh r (col 1024 (by decide) j))

/-- The new hidden state at row `r`, hidden unit `j`. -/
def hidNew (r : Fin 16384) (j : Fin 512) : EReal :=
  Ideal.logistic (preact x h0 Wi Wh bi bh r (col 1536 (by decide) j)) * Ideal.tanh (cellNew x h0 c0 Wi Wh bi bh r j)

/-- The new cell state as an array. -/
def Gc : SB.Idx → EReal := fun i => cellNew x h0 c0 Wi Wh bi bh ⟨(i 0).val, idx2_lt0 i⟩ ⟨(i 1).val, idx2_lt1 i⟩

/-- The new hidden state as an array. -/
def Gh : SB.Idx → EReal := fun i => hidNew x h0 c0 Wi Wh bi bh ⟨(i 0).val, idx2_lt0 i⟩ ⟨(i 1).val, idx2_lt1 i⟩

theorem Gc_ix2 (r : Fin 16384) (j : Fin 512) : Gc x h0 c0 Wi Wh bi bh (ix2 r j) = cellNew x h0 c0 Wi Wh bi bh r j := rfl
theorem Gh_ix2 (r : Fin 16384) (j : Fin 512) : Gh x h0 c0 Wi Wh bi bh (ix2 r j) = hidNew x h0 c0 Wi Wh bi bh r j := rfl

end

/-! ## One tile of 512 rows

The same formulas over ONE tile's blocks: `xb`, `hb`, `cb` the 512 × 512 blocks of `x`, `h0`, `c0` holding the
tile's rows, `wi`, `wh` the whole fused weight matrices and `bias` the fused bias sum as a 1 × 2048 row. -/

/-- A tile of 512 rows × hidden. -/
abbrev SK : Shape := ⟨2, ![512, 512]⟩
/-- The bias sum as a row. -/
abbrev SR : Shape := ⟨2, ![1, 2048]⟩

section
variable (xb hb cb : SK.Idx → EReal) (wi wh : SW.Idx → EReal) (bias : SR.Idx → EReal)

/-- The tile's pre-activation at local row `p`, fused column `n`. -/
def blkPre (p : Fin 512) (n : Fin 2048) : EReal :=
  ((∑ k : Fin 512, xb (ix2 p k) * wi (ix2 k n)) + (∑ k : Fin 512, hb (ix2 p k) * wh (ix2 k n))) + bias (ix2 (0 : Fin 1) n)

/-- The tile's new cell state at local row `p`, hidden unit `q`. -/
def blkCell (p q : Fin 512) : EReal :=
  Ideal.logistic (blkPre xb hb wi wh bias p (col 512 (by decide) q)) * cb (ix2 p q)
    + Ideal.logistic (blkPre xb hb wi wh bias p (col 0 (by decide) q)) * Ideal.tanh (blkPre xb hb wi wh bias p (col 1024 (by decide) q))

/-- The tile's new hidden state at local row `p`, hidden unit `q`. -/
def blkHid (p q : Fin 512) : EReal :=
  Ideal.logistic (blkPre xb hb wi wh bias p (col 1536 (by decide) q)) * Ideal.tanh (blkCell xb hb cb wi wh bias p q)

end

end Cert.LstmSpec

end
-- ==== Proof.KernelPay.lean ====
import proofs.«117173_j56435870269511_1_alg».proof.Proof.Gen.KernelIdeal.Skeleton
import proofs.«117173_j56435870269511_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Cert.LstmSpec
open Idealize.ShloMosaic Idealize.ShloMosaic.TcCoe Idealize.ShloMosaic.ValueIdx Idealize.SL.Sem

variable (v0 v2 : Vec Ideal S512x512 .f32) (v4 v6 : Vec Ideal S512x2048 .bf16) (v11 : Vec Ideal S1x2048 .f32) (v23 : Vec Ideal S512x512 .f32)

/-! ## The matrix product read at an index

The product's dimension numbers contract axis 1 of the left operand with axis 0 of the right one; there is no batch
axis, the left operand's axis 0 is the result's row and the right operand's axis 1 is the result's column. So at the
result index (p, n) and contraction coordinate k the left operand is read at (p, k) and the right one at (k, n). -/

/-- The left operand's row coordinate is the result's row: axis 0 is its free axis. -/
private theorem mm_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
/-- The left operand's column coordinate is the contraction coordinate: axis 1 is the one contracted axis. -/
private theorem mm_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
/-- The right operand's row coordinate is the contraction coordinate: axis 0 is the one contracted axis. -/
private theorem mm_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
/-- The right operand's column coordinate is the result's column: axis 1 is its free axis. -/
private theorem mm_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A matrix product accumulated into the zero array, at (p, n): the accumulator contributes 0, and the sum over the
    one-axis contraction index set is the sum over k : Fin 512 of l[p, k] · r[k, n] (re-indexed along the bijection
    between that index set and its single coordinate). -/
private theorem mm_apply (l : FVec Ideal S512x512 .bf16) (r : FVec Ideal S512x2048 .bf16) (p : Fin 512) (n : Fin 2048) :
    matmul (F := Ideal) dot_S512x512_S512x2048_S512x2048_1_0_0_1_n_n none l r (constant (F := Ideal) S512x2048 .f32 0x00000000#32) (ix2 p n)
      = ∑ k : Fin 512, l (ix2 p k) * r (ix2 k n) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p n) ((ValueIdx.contrEquiv1 dot_S512x512_S512x2048_S512x2048_1_0_0_1_n_n 512 rfl rfl).symm k) = ix2 p k := funext fun a => Fin.ext (by
    match a with
    | ⟨0, _⟩ => exact mm_lhs_0 _ _
    | ⟨1, _⟩ => exact (mm_lhs_1 _ _).trans hk)
  have er : dot_S512x512_S512x2048_S512x2048_1_0_0_1_n_n.rhsIdx (ix2 p n) ((ValueIdx.contrEquiv1 dot_S512x512_S512x2048_S512x2048_1_0_0_1_n_n 512 rfl rfl).symm k) = ix2 k n := funext fun a => Fin.ext (by
    match a with
    | ⟨0, _⟩ => exact (mm_rhs_0 _ _).trans hk
    | ⟨1, _⟩ => exact mm_rhs_1 _ _)
  rw [el, er]

/-- The 512-column slice starting at column `o` of a 512 × 2048 array, at (p, q), is the array at (p, o + q):
    the row offset is 0 and the column offset is `o`. -/
private theorem slice_apply (o : Nat) (ho : o + 512 ≤ 2048) (y : S512x2048.Idx → EReal) (h : S512x2048.Slices ![0, o] S512x512) (p q : Fin 512) :
    extractStridedSlice S512x512 ![0, o] y h (ix2 p q) = y (ix2 p (col o ho q)) :=
  extractStridedSlice_apply ![0, o] y h (ix2 p q) (ix2 p (col o ho q)) (fun a => match a with
    | ⟨0, _⟩ => by show p.val = 0 + p.val; omega
    | ⟨1, _⟩ => by show o + q.val = o + q.val; rfl)

/-- The pre-activation at (p, n): the two products into zero accumulators are the two sums over k; a cast to the same
    shape changes nothing; the 1 × 2048 bias row broadcast down the 512 rows is read at (0, n) (its row axis has extent
    one, its column axis is the result's column); and over the extended reals narrowing the format is the identity,
    so each factor is the operand's own element. -/
theorem pay1_apply (p : Fin 512) (n : Fin 2048) :
    k0_pay1 (F := Ideal) v0 v2 v4 v6 v11 (ix2 p n) = blkPre v0 v2 v4 v6 v11 p n := by
  unfold k0_pay1 blkPre
  rw [shapeCast_self, shapeCast_self, shapeCast_self]
  -- a sum of arrays at an index is the sum of the elements
  show (matmul (F := Ideal) dot_S512x512_S512x2048_S512x2048_1_0_0_1_n_n none (truncf .bf16 v0 bitsLt_bf16_f32) v4 (constant (F := Ideal) S512x2048 .f32 0x00000000#32) (ix2 p n)
      + matmul (F := Ideal) dot_S512x512_S512x2048_S512x2048_1_0_0_1_n_n none (truncf .bf16 v2 bitsLt_bf16_f32) v6 (constant (F := Ideal) S512x2048 .f32 0x00000000#32) (ix2 p n))
      + broadcastTo S512x2048 v11 broadcasts_S1x2048_S512x2048 (ix2 p n) = _
  rw [mm_apply, mm_apply]
  have hb : broadcastTo S512x2048 v11 broadcasts_S1x2048_S512x2048 (ix2 p n) = v11 (ix2 (0 : Fin 1) n) :=
    broadcastTo_apply v11 broadcasts_S1x2048_S512x2048 (ix2 p n) (ix2 (0 : Fin 1) n) (fun a => match a with
      | ⟨0, _⟩ => by show 0 = if (1 : Nat) = 1 then 0 else p.val; rw [if_pos rfl]
      | ⟨1, _⟩ => by show n.val = if (2048 : Nat) = 1 then 0 else n.val; rw [if_neg (by decide)])
  rw [hb]
  -- the narrowed operands are the operands themselves, element by element
  rfl

/-- The new cell state at (p, q): elementwise, σ(forget) · c + σ(input) · tanh(candidate), where the forget, input and
    candidate gates are the pre-activation's columns 512 + q, q and 1024 + q. -/
theorem pay2_apply (p q : Fin 512) :
    k0_pay2 (F := Ideal) v0 v2 v4 v6 v11 v23 (ix2 p q) = blkCell v0 v2 v23 v4 v6 v11 p q := by
  unfold k0_pay2 blkCell
  show Ideal.logistic (extractStridedSlice S512x512 ![0, 512] (k0_pay1 (F := Ideal) v0 v2 v4 v6 v11) slices_S512x2048_o0_512_S512x512 (ix2 p q)) * v23 (ix2 p q)
      + Ideal.logistic (extractStridedSlice S512x512 ![0, 0] (k0_pay1 (F := Ideal) v0 v2 v4 v6 v11) slices_S512x2048_o0_0_S512x512 (ix2 p q))
        * Ideal.tanh (extractStridedSlice S512x512 ![0, 1024] (k0_pay1 (F := Ideal) v0 v2 v4 v6 v11) slices_S512x2048_o0_1024_S512x512 (ix2 p q)) = _
  rw [slice_apply 512 (by decide), slice_apply 0 (by decide), slice_apply 1024 (by decide), pay1_apply, pay1_apply, pay1_apply]

/-- The new hidden state at (p, q): elementwise, σ(output) · tanh(new cell), the output gate being the
    pre-activation's column 1536 + q. -/
theorem pay3_apply (p q : Fin 512) :
    k0_pay3 (F := Ideal) v0 v2 v4 v6 v11 v23 (ix2 p q) = blkHid v0 v2 v23 v4 v6 v11 p q := by
  unfold k0_pay3 blkHid
  show Ideal.logistic (extractStridedSlice S512x512 ![0, 1536] (k0_pay1 (F := Ideal) v0 v2 v4 v6 v11) slices_S512x2048_o0_1536_S512x512 (ix2 p q))
      * Ideal.tanh (k0_pay2 (F := Ideal) v0 v2 v4 v6 v11 v23 (ix2 p q)) = _
  rw [slice_apply 1536 (by decide), pay1_apply, pay2_apply]

end Cert.KernelIdeal.PayValue

end
-- ==== Proof.SpecTile.lean ====
/-
  A tile's formulas are the array's formulas at the tile's rows.

  Tile `t` (of 32) holds rows 512·t … 512·t + 511. If the tile's blocks of `x`, `h0`, `c0` read those rows of the
  arrays, its weight operands read the fused matrices entry by entry, and its bias row reads the sum of the two fused
  biases, then the tile's pre-activation, new cell state and new hidden state at local row `p` are the arrays' at row
  512·t + p: the sums range over the same products, term by term.
-/
import proofs.«117173_j56435870269511_1_alg».proof.Proof.Spec

noncomputable section

open scoped BigOperators

namespace Cert.LstmSpec

open Idealize.ShloMosaic Idealize.ShloMosaic.ValueIdx

/-- Row `p` of tile `t`. -/
abbrev row (t : Fin 32) (p : Fin 512) : Fin 16384 := ⟨t.val * 512 + p.val, by have := t.isLt; have := p.isLt; omega⟩

section
variable {x h0 c0 : SB.Idx → EReal} {Wi Wh : SW.Idx → EReal} {bi bh : SV.Idx → EReal}
variable {xb hb cb : SK.Idx → EReal} {wi wh : SW.Idx → EReal} {bias : SR.Idx → EReal} {t : Fin 32}

theorem blkPre_eq (hx : ∀ p k, xb (ix2 p k) = x (ix2 (row t p) k)) (hh : ∀ p k, hb (ix2 p k) = h0 (ix2 (row t p) k))
    (hwi : ∀ k n, wi (ix2 k n) = Wi (ix2 k n)) (hwh : ∀ k n, wh (ix2 k n) = Wh (ix2 k n))
    (hbias : ∀ n, bias (ix2 (0 : Fin 1) n) = bi (ix1 n) + bh (ix1 n)) (p : Fin 512) (n : Fin 2048) :
    blkPre xb hb wi wh bias p n = preact x h0 Wi Wh bi bh (row t p) n := by
  unfold blkPre preact prods
  simp only [hx, hh, hwi, hwh, hbias]

theorem blkCell_eq (hx : ∀ p k, xb (ix2 p k) = x (ix2 (row t p) k)) (hh : ∀ p k, hb (ix2 p k) = h0 (ix2 (row t p) k))
    (hc : ∀ p q, cb (ix2 p q) = c0 (ix2 (row t p) q))
    (hwi : ∀ k n, wi (ix2 k n) = Wi (ix2 k n)) (hwh : ∀ k n, wh (ix2 k n) = Wh (ix2 k n))
    (hbias : ∀ n, bias (ix2 (0 : Fin 1) n) = bi (ix1 n) + bh (ix1 n)) (p q : Fin 512) :
    blkCell xb hb cb wi wh bias p q = cellNew x h0 c0 Wi Wh bi bh (row t p) q := by
  unfold blkCell cellNew
  simp only [blkPre_eq hx hh hwi hwh hbias, hc]

theorem blkHid_eq (hx : ∀ p k, xb (ix2 p k) = x (ix2 (row t p) k)) (hh : ∀ p k, hb (ix2 p k) = h0 (ix2 (row t p) k))
    (hc : ∀ p q, cb (ix2 p q) = c0 (ix2 (row t p) q))
    (hwi : ∀ k n, wi (ix2 k n) = Wi (ix2 k n)) (hwh : ∀ k n, wh (ix2 k n) = Wh (ix2 k n))
    (hbias : ∀ n, bias (ix2 (0 : Fin 1) n) = bi (ix1 n) + bh (ix1 n)) (p q : Fin 512) :
    blkHid xb hb cb wi wh bias p q = hidNew x h0 c0 Wi Wh bi bh (row t p) q := by
  unfold blkHid hidNew
  simp only [blkPre_eq hx hh hwi hwh hbias, blkCell_eq hx hh hc hwi hwh hbias]

end

end Cert.LstmSpec

end
-- ==== Proof.KernelValue.lean ====
/-
  The VALUE of the LSTM-cell program over the extended reals: after the run the first result array holds the new hidden
  state `Gh` and the second the new cell state `Gc` of the launched arguments, index by index.

  The region finds, in the arrays its windows stage, the three batch arguments as launched and — written by the host
  operations before it — the two fused weight matrices (narrowing the format is the identity over the extended reals) and
  the row holding the sum of the two fused biases. Block `t` of a batch array is its rows 512·t … 512·t + 511; the weight
  matrices and the bias row are one block each. At point `t` the body stores into each output buffer the tile's formula of
  those blocks, which is the arrays' formula at rows 512·t + p; the pipeline writes that buffer back as block `t` of the
  result; the 32 blocks tile the result's 16384 rows (row `r` lies in block `r / 512`). So each result array IS the
  whole-array function.
-/
import proofs.«117173_j56435870269511_1_alg».proof.Proof.KernelIdealFrame
import proofs.«117173_j56435870269511_1_alg».proof.Proof.KernelPay
import proofs.«117173_j56435870269511_1_alg».proof.Proof.SpecTile
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.KValue

open Cert.KernelIdeal Cert.KernelIdeal.Gen Cert.KernelIdeal.Frame Cert.KernelIdeal.PayValue Cert.LstmSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- Four 512 × 512 matrices side by side along the second axis. -/
def fuseW (a b c d : (⟨S512x512, .f32⟩ : BufTy).Contents (Elt Ideal)) : (⟨S512x2048, .f32⟩ : BufTy).Contents (Elt Ideal) :=
  concatenate S512x2048 1 [⟨S512x512, a⟩, ⟨S512x512, b⟩, ⟨S512x512, c⟩, ⟨S512x512, d⟩] concatenates_S512x512_S512x512_S512x512_S512x512_S512x2048_d1

/-- Four 512-vectors end to end. -/
def fuseB (a b c d : (⟨S512, .f32⟩ : BufTy).Contents (Elt Ideal)) : (⟨S2048, .f32⟩ : BufTy).Contents (Elt Ideal) :=
  concatenate S2048 0 [⟨S512, a⟩, ⟨S512, b⟩, ⟨S512, c⟩, ⟨S512, d⟩] concatenates_S512_S512_S512_S512_S2048_d0

abbrev A (c : Dev nD) (b : Ref sig .tc) : Buf (Elt Ideal) ((c : Thread nD τ).loc b) := m ((c : Thread nD τ).loc b)

/-- The fused input-side weight matrix, from the launched arguments. -/
abbrev WiA (c : Dev nD) := fuseW (A m c main_arg3) (A m c main_arg4) (A m c main_arg5) (A m c main_arg6)
/-- The fused hidden-side weight matrix. -/
abbrev WhA (c : Dev nD) := fuseW (A m c main_arg7) (A m c main_arg8) (A m c main_arg9) (A m c main_arg10)
/-- The fused input-side bias. -/
abbrev biA (c : Dev nD) := fuseB (A m c main_arg11) (A m c main_arg12) (A m c main_arg13) (A m c main_arg14)
/-- The fused hidden-side bias. -/
abbrev bhA (c : Dev nD) := fuseB (A m c main_arg15) (A m c main_arg16) (A m c main_arg17) (A m c main_arg18)

/-- The region finds the narrowed fused input-side matrix in the buffer its fourth window stages. -/
theorem V_v1 (c : Dev nD) : (V m c main_v1 : (⟨S512x2048, .bf16⟩ : BufTy).Contents (Elt Ideal)) = truncf (F := Ideal) .bf16 (WiA m c) bitsLt_bf16_f32 := by
  dsimp only [V, hostOps0]; after_results; rfl

/-- Likewise the narrowed fused hidden-side matrix, in its fifth window's array. -/
theorem V_v3 (c : Dev nD) : (V m c main_v3 : (⟨S512x2048, .bf16⟩ : BufTy).Contents (Elt Ideal)) = truncf (F := Ideal) .bf16 (WhA m c) bitsLt_bf16_f32 := by
  dsimp only [V, hostOps0]; after_results; rfl

/-- And the sum of the two fused biases, reshaped to a 1 × 2048 row, in its sixth window's array. -/
theorem V_v7 (c : Dev nD) : (V m c main_v7 : (⟨S1x2048, .f32⟩ : BufTy).Contents (Elt Ideal))
    = shapeCast S1x2048 (addf (F := Ideal) (φ := .f32) (biA m c) (bhA m c)) shapeCasts_S2048_S1x2048 := by
  dsimp only [V, hostOps0]; after_results; rfl

theorem hz : (![0, 0] : Fin 2 → Nat) = fun _ => 0 := funext fun a => by fin_cases a <;> rfl

/-- The grid's index maps, decided over the 32 points: block `t` of a batch array (inputs and results alike) is at block
    row `t`, block column 0; the weights and the bias row are the one block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The grid point as a tile number. -/
abbrev tile (t : Fin cfg0.N) : Fin 32 := ⟨t.val, by have h : cfg0.N = 32 := N_0; have := t.isLt; omega⟩

/-! ## The six input blocks read at an index -/

/-- Block `t` of `x` is rows 512·t … 512·t + 511 of the launched argument. -/
theorem xblk_apply (c : Dev nD) (t : Fin cfg0.N) (p k : Fin 512) :
    (iblk m c 0 t : Vec Ideal S512x512 .f32) (ix2 p k) = (A m c main_arg0 : S16384x512.Idx → EReal) (ix2 (row (tile t) p) k) := by
  obtain ⟨e0, e1, -, -, -, -, -, -, -, -, -, -, -, -, -, -⟩ := idx_facts t
  unfold iblk
  rw [View.read_apply]
  show V m c main_arg0 _ = _
  rw [V_main_arg0]
  show (A m c main_arg0 : S16384x512.Idx → EReal) _ = _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

/-- Block `t` of `h0` likewise. -/
theorem hblk_apply (c : Dev nD) (t : Fin cfg0.N) (p k : Fin 512) :
    (iblk m c 1 t : Vec Ideal S512x512 .f32) (ix2 p k) = (A m c main_arg1 : S16384x512.Idx → EReal) (ix2 (row (tile t) p) k) := by
  obtain ⟨-, -, e0, e1, -, -, -, -, -, -, -, -, -, -, -, -⟩ := idx_facts t
  unfold iblk
  rw [View.read_apply]
  show V m c main_arg1 _ = _
  rw [V_main_arg1]
  show (A m c main_arg1 : S16384x512.Idx → EReal) _ = _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 512 + 1 * k.val = k.val; rw [e1]; omega

/-- Block `t` of `c0` likewise. -/
theorem cblk_apply (c : Dev nD) (t : Fin cfg0.N) (p k : Fin 512) :
    (iblk m c 2 t : Vec Ideal S512x512 .f32) (ix2 p k) = (A m c main_arg2 : S16384x512.Idx → EReal) (ix2 (row (tile t) p) k) := by
  obtain ⟨-, -, -, -, e0, e1, -, -, -, -, -, -, -, -, -, -⟩ := idx_facts t
  unfold iblk
  rw [View.read_apply]
  show V m c main_arg2 _ = _
  rw [V_main_arg2]
  show (A m c main_arg2 : S16384x512.Idx → EReal) _ = _
  congr 1
  funext a
  apply Fin.ext
  match a with
  | ⟨0, _⟩ => show win0_2.index t (0 : Fin 2) * 512 + 1 * p.val = t.val * 512 + p.val; rw [e0]; omega
  | ⟨1, _⟩ => show win0_2.index t (1 : Fin 2) * 512 + 1 * k.val = k.val; rw [e1]; omega

/-- The one block of the narrowed fused input-side matrix is the fused matrix, entry by entry. -/
theorem wiblk_apply (c : Dev nD) (t : Fin cfg0.N) (k : Fin 512) (n : Fin 2048) :
    (iblk m c 3 t : Vec Ideal S512x2048 .bf16) (ix2 k n) = (WiA m c : S512x2048.Idx → EReal) (ix2 k n) := by
  obtain ⟨-, -, -, -, -, -, e0, e1, -, -, -, -, -, -, -, -⟩ := idx_facts t
  unfold iblk
  rw [View.read_apply]
  show (V m c main_v1 : (⟨S512x2048, .bf16⟩ : BufTy).Contents (Elt Ideal)) _ = _
  rw [V_v1]
  show (WiA m c : S512x2048.Idx → EReal) _ = _
  congr 1
  funext a
  apply Fin.ext
  match a with
  | ⟨0, _⟩ => show win0_3.index t (0 : Fin 2) * 512 + 1 * k.val = k.val; rw [e0]; omega
  | ⟨1, _⟩ => show win0_3.index t (1 : Fin 2) * 2048 + 1 * n.val = n.val; rw [e1]; omega

/-- The one block of the narrowed fused hidden-side matrix likewise. -/
theorem whblk_apply (c : Dev nD) (t : Fin cfg0.N) (k : Fin 512) (n : Fin 2048) :
    (iblk m c 4 t : Vec Ideal S512x2048 .bf16) (ix2 k n) = (WhA m c : S512x2048.Idx → EReal) (ix2 k n) := by
  obtain ⟨-, -, -, -, -, -, -, -, e0, e1, -, -, -, -, -, -⟩ := idx_facts t
  unfold iblk
  rw [View.read_apply]
  show (V m c main_v3 : (⟨S512x2048, .bf16⟩ : BufTy).Contents (Elt Ideal)) _ = _
  rw [V_v3]
  show (WhA m c : S512x2048.Idx → EReal) _ = _
  congr 1
  funext a
  apply Fin.ext
  match a with
  | ⟨0, _⟩ => show win0_4.index t (0 : Fin 2) * 512 + 1 * k.val = k.val; rw [e0]; omega
  | ⟨1, _⟩ => show win0_4.index t (1 : Fin 2) * 2048 + 1 * n.val = n.val; rw [e1]; omega

/-- The one block of the bias row, at column `n`, is the sum of the two fused biases at `n`: the row is the 2048-vector of
    sums reshaped, and a reshape keeps the row-major position. -/
theorem biasblk_apply (c : Dev nD) (t : Fin cfg0.N) (n : Fin 2048) :
    (iblk m c 5 t : Vec Ideal S1x2048 .f32) (ix2 (0 : Fin 1) n) = (biA m c : S2048.Idx → EReal) (ix1 n) + (bhA m c : S2048.Idx → EReal) (ix1 n) := by
  obtain ⟨-, -, -, -, -, -, -, -, -, -, e0, e1, -, -, -, -⟩ := idx_facts t
  unfold iblk
  rw [View.read_apply]
  have hemb : ((cfg0.win 5).blk t).view.emb (ix2 (0 : Fin 1) n) = ix2 (0 : Fin 1) n := by
    funext a
    apply Fin.ext
    match a with
    | ⟨0, _⟩ => show win0_5.index t (0 : Fin 2) * 1 + 1 * 0 = 0; rw [e0]
    | ⟨1, _⟩ => show win0_5.index t (1 : Fin 2) * 2048 + 1 * n.val = n.val; rw [e1]; omega
  rw [hemb]
  show (V m c main_v7 : (⟨S1x2048, .f32⟩ : BufTy).Contents (Elt Ideal)) _ = _
  rw [V_v7]
  refine (shapeCast_apply _ _ (ix2 (0 : Fin 1) n) (ix1 n) ?_).trans rfl
  rw [Shape.rowMajor_val_one, Shape.rowMajor_val_two]
  show n.val = 0 * 2048 + n.val
  omega

/-! ## The result arrays as whole-array functions -/

/-- The new hidden state of the launched arguments. -/
abbrev GhA (c : Dev nD) : S16384x512.Idx → EReal := Gh (A m c main_arg0) (A m c main_arg1) (A m c main_arg2) (WiA m c) (WhA m c) (biA m c) (bhA m c)
/-- The new cell state of the launched arguments. -/
abbrev GcA (c : Dev nD) : S16384x512.Idx → EReal := Gc (A m c main_arg0) (A m c main_arg1) (A m c main_arg2) (WiA m c) (WhA m c) (biA m c) (bhA m c)

/-- What the body leaves in the first output buffer at point `t`, at local row `p`, unit `q`: the payload of its one whole-buffer
    store is the tile's formula of the six input blocks, which is the arrays' formula at row 512·t + p. -/
theorem outH_apply (c : Dev nD) (t : Fin cfg0.N) (p q : Fin 512) :
    outH (iblk m c 0 t) (iblk m c 1 t) (iblk m c 2 t) (iblk m c 3 t) (iblk m c 4 t) (iblk m c 5 t) (ix2 p q) = hidNew (A m c main_arg0) (A m c main_arg1) (A m c main_arg2) (WiA m c) (WhA m c) (biA m c) (bhA m c) (row (tile t) p) q := by
  unfold outH
  rw [View.canon_unit_zero hz]
  simp only [View.ld_unit_zero (S := S512x512) hz, View.ld_unit_zero (S := S512x2048) hz, View.ld_unit_zero (S := S1x2048) hz]
  refine (pay3_apply (iblk m c 0 t) (iblk m c 1 t) (iblk m c 3 t) (iblk m c 4 t) (iblk m c 5 t) (iblk m c 2 t) p q).trans ?_
  exact blkHid_eq (xblk_apply m c t) (hblk_apply m c t) (cblk_apply m c t) (wiblk_apply m c t) (whblk_apply m c t) (biasblk_apply m c t) p q

/-- Block `t` of `GhA`, at local (p, q), is the arrays' formula at row 512·t + p. -/
theorem GhA_blk (c : Dev nD) (t : Fin cfg0.N) (p q : Fin 512) :
    GhA m c (((cfg0.win 6).blk t).view.emb (ix2 p q)) = hidNew (A m c main_arg0) (A m c main_arg1) (A m c main_arg2) (WiA m c) (WhA m c) (biA m c) (bhA m c) (row (tile t) p) q := by
  obtain ⟨-, -, -, -, -, -, -, -, -, -, -, -, e0, e1, -, -⟩ := idx_facts t
  have hemb : ((cfg0.win 6).blk t).view.emb (ix2 p q) = ix2 (row (tile t) p) q := by
    funext a
    apply Fin.ext
    match a with
    | ⟨0, _⟩ => show win0_6.index t (0 : Fin 2) * 512 + 1 * p.val = t.val * 512 + p.val; rw [e0]; omega
    | ⟨1, _⟩ => show win0_6.index t (1 : Fin 2) * 512 + 1 * q.val = q.val; rw [e1]; omega
  rw [hemb]
  rfl

/-- What point `t` writes back from the first output buffer is block `t` of `GhA`. -/
theorem flushedH_eq (c : Dev nD) (t : Fin cfg0.N) :
    (dats m 0 c).flushed 6 t = ((cfg0.win 6).blk t).view.read (Elt Ideal) (GhA m c) := by
  show (cfg0.win 6).cut (grid0.coords t) ((dats m 0 c).after 6 t) = _
  rw [after6]
  funext j
  obtain ⟨p, q, rfl⟩ : ∃ (p q : Fin 512), j = ix2 p q := ⟨j 0, j 1, eq_ix2 j⟩
  rw [View.read_apply]
  exact (outH_apply m c t p q).trans (GhA_blk m c t p q).symm

/-- An index of the first result array is in point `t`'s block iff each coordinate is in the block's range. -/
theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v8_0).slice (win0_6.rect t)).set ↔ _
  rw [View.set_slice_whole, Rect.mem_set_unit]
  exact Iff.rfl

/-- The 32 blocks tile the array: row `r` is in block `r / 512`. -/
theorem cover6 (i : S16384x512.Idx) : ∃ t : Fin cfg0.N, (cfg0.win 6).flush t = true ∧ i ∈ ((cfg0.win 6).blk t).view.set := by
  have hN : cfg0.N = 32 := N_0
  have hi0 : (i 0).val < 16384 := (i 0).isLt
  have hi1 : (i 1).val < 512 := (i 1).isLt
  have ht : (i 0).val / 512 < cfg0.N := by omega
  obtain ⟨-, -, -, -, -, -, -, -, -, -, -, -, e0, e1, -, -⟩ := idx_facts ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, ht⟩ (1 : Fin 2) * 512 ≤ (i 1).val ∧ (i 1).val < win0_6.index ⟨(i 0).val / 512, ht⟩ (1 : Fin 2) * 512 + 512
    rw [e1]; omega

/-- The first result array after the run is `GhA`. -/
theorem finalH (c : Dev nD) : (dats m 0 c).arrAt 6 cfg0.N = GhA m c :=
  (dats m 0 c).arrAt_eq_of_cover 6 (GhA m c) (fun t _ => flushedH_eq m c t) cover6

/-- What the body leaves in the second output buffer at point `t`, at local row `p`, unit `q`: the payload of its one whole-buffer
    store is the tile's formula of the six input blocks, which is the arrays' formula at row 512·t + p. -/
theorem outC_apply (c : Dev nD) (t : Fin cfg0.N) (p q : Fin 512) :
    outC (iblk m c 0 t) (iblk m c 1 t) (iblk m c 2 t) (iblk m c 3 t) (iblk m c 4 t) (iblk m c 5 t) (ix2 p q) = cellNew (A m c main_arg0) (A m c main_arg1) (A m c main_arg2) (WiA m c) (WhA m c) (biA m c) (bhA m c) (row (tile t) p) q := by
  unfold outC
  rw [View.canon_unit_zero hz]
  simp only [View.ld_unit_zero (S := S512x512) hz, View.ld_unit_zero (S := S512x2048) hz, View.ld_unit_zero (S := S1x2048) hz]
  refine (pay2_apply (iblk m c 0 t) (iblk m c 1 t) (iblk m c 3 t) (iblk m c 4 t) (iblk m c 5 t) (iblk m c 2 t) p q).trans ?_
  exact blkCell_eq (xblk_apply m c t) (hblk_apply m c t) (cblk_apply m c t) (wiblk_apply m c t) (whblk_apply m c t) (biasblk_apply m c t) p q

/-- Block `t` of `GcA`, at local (p, q), is the arrays' formula at row 512·t + p. -/
theorem GcA_blk (c : Dev nD) (t : Fin cfg0.N) (p q : Fin 512) :
    GcA m c (((cfg0.win 7).blk t).view.emb (ix2 p q)) = cellNew (A m c main_arg0) (A m c main_arg1) (A m c main_arg2) (WiA m c) (WhA m c) (biA m c) (bhA m c) (row (tile t) p) q := by
  obtain ⟨-, -, -, -, -, -, -, -, -, -, -, -, -, -, e0, e1⟩ := idx_facts t
  have hemb : ((cfg0.win 7).blk t).view.emb (ix2 p q) = ix2 (row (tile t) p) q := by
    funext a
    apply Fin.ext
    match a with
    | ⟨0, _⟩ => show win0_7.index t (0 : Fin 2) * 512 + 1 * p.val = t.val * 512 + p.val; rw [e0]; omega
    | ⟨1, _⟩ => show win0_7.index t (1 : Fin 2) * 512 + 1 * q.val = q.val; rw [e1]; omega
  rw [hemb]
  rfl

/-- What point `t` writes back from the second output buffer is block `t` of `GcA`. -/
theorem flushedC_eq (c : Dev nD) (t : Fin cfg0.N) :
    (dats m 0 c).flushed 7 t = ((cfg0.win 7).blk t).view.read (Elt Ideal) (GcA m c) := by
  show (cfg0.win 7).cut (grid0.coords t) ((dats m 0 c).after 7 t) = _
  rw [after7]
  funext j
  obtain ⟨p, q, rfl⟩ : ∃ (p q : Fin 512), j = ix2 p q := ⟨j 0, j 1, eq_ix2 j⟩
  rw [View.read_apply]
  exact (outC_apply m c t p q).trans (GcA_blk m c t p q).symm

/-- An index of the second result array is in point `t`'s block iff each coordinate is in the block's range. -/
theorem mem_blk7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v8_1).slice (win0_7.rect t)).set ↔ _
  rw [View.set_slice_whole, Rect.mem_set_unit]
  exact Iff.rfl

/-- The 32 blocks tile the array: row `r` is in block `r / 512`. -/
theorem cover7 (i : S16384x512.Idx) : ∃ t : Fin cfg0.N, (cfg0.win 7).flush t = true ∧ i ∈ ((cfg0.win 7).blk t).view.set := by
  have hN : cfg0.N = 32 := N_0
  have hi0 : (i 0).val < 16384 := (i 0).isLt
  have hi1 : (i 1).val < 512 := (i 1).isLt
  have ht : (i 0).val / 512 < cfg0.N := by omega
  obtain ⟨-, -, -, -, -, -, -, -, -, -, -, -, -, -, e0, e1⟩ := idx_facts ⟨(i 0).val / 512, ht⟩
  refine ⟨⟨(i 0).val / 512, ht⟩, flush0_7 _, ?_⟩
  rw [mem_blk7]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, ht⟩ (1 : Fin 2) * 512 ≤ (i 1).val ∧ (i 1).val < win0_7.index ⟨(i 0).val / 512, ht⟩ (1 : Fin 2) * 512 + 512
    rw [e1]; omega

/-- The second result array after the run is `GcA`. -/
theorem finalC (c : Dev nD) : (dats m 0 c).arrAt 7 cfg0.N = GcA m c :=
  (dats m 0 c).arrAt_eq_of_cover 7 (GcA m c) (fun t _ => flushedC_eq m c t) cover7

/-! ## The run, read -/

/-- Every weakly fair execution terminates with the first result array at the new hidden state, the second at the new
    cell state, and the nineteen arguments as launched. -/
theorem run : θ_run defs (onTc (τ := τ) (main (F := Ideal))) ⟨m, fun _ => 0, ρ⟩ fun r => ∀ c : Dev nD,
      r.2.mem ((c.tc : Thread nD τ).loc main_v8_0) = GhA m c
      ∧ r.2.mem ((c.tc : Thread nD τ).loc main_v8_1) = GcA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨((h c).1 6).trans (finalH m c), ((h c).1 7).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.KValue

end
-- ==== Proof.RefValue.lean ====
import proofs.«117173_j56435870269511_1_alg».proof.Proof.Gen.ReferenceIdeal.Read
import proofs.«117173_j56435870269511_1_alg».proof.Proof.Spec

noncomputable section

open scoped BigOperators

namespace Cert.ReferenceIdeal.RefValue

open Cert.ReferenceIdeal Cert.ReferenceIdeal.Gen Cert.ReferenceIdeal.Read Cert.LstmSpec
open Idealize.ShloMosaic Idealize.ShloMosaic.TcCoe Idealize.ShloMosaic.ValueIdx Idealize.SL.Sem

variable (x0 x1 x2 : (⟨S16384x512, .f32⟩ : BufTy).Contents (Elt Ideal)) (x3 x4 x5 x6 x7 x8 x9 x10 : (⟨S512x512, .f32⟩ : BufTy).Contents (Elt Ideal)) (x11 x12 x13 x14 x15 x16 x17 x18 : (⟨S512, .f32⟩ : BufTy).Contents (Elt Ideal))

/-- The single-precision word with sign 0, exponent field 127 and fraction 0 denotes the real number one. -/
private theorem one_word : Ideal.ofBits .f32 0x3F800000#32 = 1 := by
  simp [Ideal.ofBits, Ideal.ieee, -EReal.coe_mul]; norm_num

/-- The fused pre-activation the reference forms, read at row `r` and fused column `n`: the two products
    summed over the 512 contracted positions, then the first bias, then the second; regrouping the two
    bias terms into one summand is associativity of addition. -/
private theorem v12_at (r : Fin 16384) (n : Fin 2048) :
    val_main_v12 (F := Ideal) x0 x1 x3 x4 x5 x6 x7 x8 x9 x10 x11 x12 x13 x14 x15 x16 x17 x18 (ix2 r n)
      = preact x0 x1 (val_main_v0 (F := Ideal) x3 x4 x5 x6) (val_main_v1 (F := Ideal) x7 x8 x9 x10) (val_main_v2 (F := Ideal) x11 x12 x13 x14) (val_main_v3 (F := Ideal) x15 x16 x17 x18) r n := by
  rw [← preact_assoc]
  unfold prods
  rw [val_main_v12_apply, val_main_v9_apply, val_main_v6_apply, val_main_v4_apply, val_main_v5_apply,
    val_main_v8_apply, val_main_v7_apply, val_main_v11_apply, val_main_v10_apply]
  have e4l : ∀ k : Fin 512, lidx_main_v4 (ix2 r n) k = ix2 r k := fun k => funext fun a => by
    match a with
    | ⟨0, _⟩ => rfl
    | ⟨1, _⟩ => rfl
  have e4r : ∀ k : Fin 512, ridx_main_v4 (ix2 r n) k = ix2 k n := fun k => funext fun a => by
    match a with
    | ⟨0, _⟩ => rfl
    | ⟨1, _⟩ => rfl
  have e5l : ∀ k : Fin 512, lidx_main_v5 (ix2 r n) k = ix2 r k := fun k => funext fun a => by
    match a with
    | ⟨0, _⟩ => rfl
    | ⟨1, _⟩ => rfl
  have e5r : ∀ k : Fin 512, ridx_main_v5 (ix2 r n) k = ix2 k n := fun k => funext fun a => by
    match a with
    | ⟨0, _⟩ => rfl
    | ⟨1, _⟩ => rfl
  have e7 : idx_main_v7 (idx_main_v8 (ix2 r n)) = ix1 n := funext fun a => by
    match a with
    | ⟨0, _⟩ => rfl
  have e10 : idx_main_v10 (idx_main_v11 (ix2 r n)) = ix1 n := funext fun a => by
    match a with
    | ⟨0, _⟩ => rfl
  simp only [e4l, e4r, e5l, e5r, e7, e10, Ideal.addf_def]

/-- The reference spells the logistic function out as `1 / (1 + e^(−t))`, both ones read from the word above;
    with the word evaluated this is the definition of the logistic function over the extended reals. -/
private theorem sigmoid_expand (t : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  show Ideal.div (Ideal.ofBits .f32 0x3F800000#32) (Ideal.ofBits .f32 0x3F800000#32 + Ideal.exp (-t)) = Ideal.logistic t
  rw [one_word]
  rfl

/-- The input gate: columns 0 … 511 of the fused pre-activation (the slice's offset is 0, so its column is `0 + j`), through the expanded logistic. -/
private theorem v22_at (r : Fin 16384) (j : Fin 512) :
    val_main_v22 (F := Ideal) x0 x1 x3 x4 x5 x6 x7 x8 x9 x10 x11 x12 x13 x14 x15 x16 x17 x18 (ix2 r j)
      = Ideal.logistic (preact x0 x1 (val_main_v0 (F := Ideal) x3 x4 x5 x6) (val_main_v1 (F := Ideal) x7 x8 x9 x10) (val_main_v2 (F := Ideal) x11 x12 x13 x14) (val_main_v3 (F := Ideal) x15 x16 x17 x18) r (col 0 (by decide) j)) := by
  rw [val_main_v22_apply, val_main_v21_apply, val_main_cst_0_apply, val_main_v20_apply, val_main_v19_apply,
    val_main_cst_apply, val_main_v18_apply, val_main_v17_apply, val_main_v13_apply]
  have e : idx_main_v13 (ix2 r j) = ix2 r (col 0 (by decide) j) := funext fun a => Fin.ext (by
    match a with
    | ⟨0, _⟩ => rfl
    | ⟨1, _⟩ => exact (Nat.zero_add j.val).symm)
  rw [e, v12_at]
  exact sigmoid_expand _

/-- The forget gate: columns 512 … 1023 of the fused pre-activation (column `512 + j`), through the expanded logistic. -/
private theorem v28_at (r : Fin 16384) (j : Fin 512) :
    val_main_v28 (F := Ideal) x0 x1 x3 x4 x5 x6 x7 x8 x9 x10 x11 x12 x13 x14 x15 x16 x17 x18 (ix2 r j)
      = Ideal.logistic (preact x0 x1 (val_main_v0 (F := Ideal) x3 x4 x5 x6) (val_main_v1 (F := Ideal) x7 x8 x9 x10) (val_main_v2 (F := Ideal) x11 x12 x13 x14) (val_main_v3 (F := Ideal) x15 x16 x17 x18) r (col 512 (by decide) j)) := by
  rw [val_main_v28_apply, val_main_v27_apply, val_main_cst_2_apply, val_main_v26_apply, val_main_v25_apply,
    val_main_cst_1_apply, val_main_v24_apply, val_main_v23_apply, val_main_v14_apply]
  have e : idx_main_v14 (ix2 r j) = ix2 r (col 512 (by decide) j) := funext fun a => Fin.ext (by
    match a with
    | ⟨0, _⟩ => rfl
    | ⟨1, _⟩ => rfl)
  rw [e, v12_at]
  exact sigmoid_expand _

/-- The output gate: columns 1536 … 2047 of the fused pre-activation (column `1536 + j`), through the expanded logistic. -/
private theorem v35_at (r : Fin 16384) (j : Fin 512) :
    val_main_v35 (F := Ideal) x0 x1 x3 x4 x5 x6 x7 x8 x9 x10 x11 x12 x13 x14 x15 x16 x17 x18 (ix2 r j)
      = Ideal.logistic (preact x0 x1 (val_main_v0 (F := Ideal) x3 x4 x5 x6) (val_main_v1 (F := Ideal) x7 x8 x9 x10) (val_main_v2 (F := Ideal) x11 x12 x13 x14) (val_main_v3 (F := Ideal) x15 x16 x17 x18) r (col 1536 (by decide) j)) := by
  rw [val_main_v35_apply, val_main_v34_apply, val_main_cst_4_apply, val_main_v33_apply, val_main_v32_apply,
    val_main_cst_3_apply, val_main_v31_apply, val_main_v30_apply, val_main_v16_apply]
  have e : idx_main_v16 (ix2 r j) = ix2 r (col 1536 (by decide) j) := funext fun a => Fin.ext (by
    match a with
    | ⟨0, _⟩ => rfl
    | ⟨1, _⟩ => rfl)
  rw [e, v12_at]
  exact sigmoid_expand _

/-- The cell candidate: columns 1024 … 1535 of the fused pre-activation (column `1024 + j`), through the hyperbolic tangent. -/
private theorem v29_at (r : Fin 16384) (j : Fin 512) :
    val_main_v29 (F := Ideal) x0 x1 x3 x4 x5 x6 x7 x8 x9 x10 x11 x12 x13 x14 x15 x16 x17 x18 (ix2 r j)
      = Ideal.tanh (preact x0 x1 (val_main_v0 (F := Ideal) x3 x4 x5 x6) (val_main_v1 (F := Ideal) x7 x8 x9 x10) (val_main_v2 (F := Ideal) x11 x12 x13 x14) (val_main_v3 (F := Ideal) x15 x16 x17 x18) r (col 1024 (by decide) j)) := by
  rw [val_main_v29_apply, val_main_v15_apply]
  have e : idx_main_v15 (ix2 r j) = ix2 r (col 1024 (by decide) j) := funext fun a => Fin.ext (by
    match a with
    | ⟨0, _⟩ => rfl
    | ⟨1, _⟩ => rfl)
  rw [e, v12_at]
  rfl

/-- The new cell state at row `r`, unit `j`: forget gate times the old cell state plus input gate times the candidate. -/
private theorem v38_at (r : Fin 16384) (j : Fin 512) :
    val_main_v38 (F := Ideal) x0 x1 x2 x3 x4 x5 x6 x7 x8 x9 x10 x11 x12 x13 x14 x15 x16 x17 x18 (ix2 r j)
      = cellNew x0 x1 x2 (val_main_v0 (F := Ideal) x3 x4 x5 x6) (val_main_v1 (F := Ideal) x7 x8 x9 x10) (val_main_v2 (F := Ideal) x11 x12 x13 x14) (val_main_v3 (F := Ideal) x15 x16 x17 x18) r j := by
  unfold cellNew
  rw [val_main_v38_apply, val_main_v36_apply, val_main_v37_apply, v28_at, v22_at, v29_at]
  rfl

theorem v38_eq_Gc :
    val_main_v38 (F := Ideal) x0 x1 x2 x3 x4 x5 x6 x7 x8 x9 x10 x11 x12 x13 x14 x15 x16 x17 x18
      = Gc x0 x1 x2 (val_main_v0 (F := Ideal) x3 x4 x5 x6) (val_main_v1 (F := Ideal) x7 x8 x9 x10) (val_main_v2 (F := Ideal) x11 x12 x13 x14) (val_main_v3 (F := Ideal) x15 x16 x17 x18) := by
  funext i
  obtain ⟨r, j, rfl⟩ : ∃ (r : Fin 16384) (j : Fin 512), i = ix2 r j := ⟨i 0, i 1, eq_ix2 i⟩
  rw [Gc_ix2]
  exact v38_at x0 x1 x2 x3 x4 x5 x6 x7 x8 x9 x10 x11 x12 x13 x14 x15 x16 x17 x18 r j

theorem v40_eq_Gh :
    val_main_v40 (F := Ideal) x0 x1 x2 x3 x4 x5 x6 x7 x8 x9 x10 x11 x12 x13 x14 x15 x16 x17 x18
      = Gh x0 x1 x2 (val_main_v0 (F := Ideal) x3 x4 x5 x6) (val_main_v1 (F := Ideal) x7 x8 x9 x10) (val_main_v2 (F := Ideal) x11 x12 x13 x14) (val_main_v3 (F := Ideal) x15 x16 x17 x18) := by
  funext i
  obtain ⟨r, j, rfl⟩ : ∃ (r : Fin 16384) (j : Fin 512), i = ix2 r j := ⟨i 0, i 1, eq_ix2 i⟩
  rw [Gh_ix2]
  unfold hidNew
  rw [val_main_v40_apply, val_main_v39_apply, v35_at, v38_at]
  rfl

end Cert.ReferenceIdeal.RefValue

end
-- ==== Proof.lean ====
/-
  An LSTM cell, tiled over the batch, against its whole-array reference: equal over the extended reals.

  Both programs fuse the four gates' weight matrices side by side into one 512 × 2048 matrix per operand and the
  four gates' biases end to end into one 2048-vector per operand, form the pre-activation
      z = x · Wi + h0 · Wh + bi + bh,
  cut it into the input, forget, candidate and output gates, and return
      c' = σ(z_f) · c0 + σ(z_i) · tanh(z_g),   h' = σ(z_o) · tanh(c').
  The tiled program handles 512 rows of the batch per grid point, narrows its matrix operands' format (the identity over
  the extended reals), adds the SUM of the two biases as one row, and uses the logistic function as one operation; the
  reference works on the whole arrays, adds the two biases one after the other, and spells the logistic function out as
  1 / (1 + e^(−t)). Over the extended reals these are one function of the arguments: the only law used is associativity
  of addition (for the bias), and the spelled-out logistic is the logistic function by definition. No finiteness of the
  inputs is needed, so the precondition is never opened.

  The three frames: the two tiled programs (word level and idealized) by the body's triple and the launch of a body
  that keeps nothing between grid points; the reference by its run with the results dropped. The idealization rewrote
  nothing, so it is preserved trivially. The value claim sets the tiled program's run, with its two result arrays named
  as the whole-array functions `Gh`, `Gc` of the launched arguments, beside the reference's run, whose result terms are
  the same functions of arguments that agree.
-/
import proofs.«117173_j56435870269511_1_alg».proof.Defs
import proofs.«117173_j56435870269511_1_alg».proof.Proof.Gen.Kernel
import proofs.«117173_j56435870269511_1_alg».proof.Proof.Gen.KernelIdeal
import proofs.«117173_j56435870269511_1_alg».proof.Proof.Gen.ReferenceIdeal
import proofs.«117173_j56435870269511_1_alg».proof.Proof.Gen.Pre_finite_inputs
import proofs.«117173_j56435870269511_1_alg».proof.Proof.KernelFrame
import proofs.«117173_j56435870269511_1_alg».proof.Proof.KernelIdealFrame
import proofs.«117173_j56435870269511_1_alg».proof.Proof.KernelValue
import proofs.«117173_j56435870269511_1_alg».proof.Proof.RefValue
import Idealize.ShloMosaic.Adequacy
import Idealize.ShloMosaic.Init

noncomputable section

namespace Cert.Proof.LstmClaims

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The tiled program's result arrays end at `Gh` and `Gc` of its launched arguments; the reference's result terms are
    `Gh` and `Gc` of its own arguments with the fused operands spelt by the same concatenations; the arguments agree. -/
theorem algebraic : Cert.algebraic_KernelIdeal_ReferenceIdeal := by
  intro m ρ m' ρ' _ hagree
  refine ⟨fun c => Cert.KernelIdeal.KValue.GhA m c, fun c => Cert.KernelIdeal.KValue.GcA m c, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v40_eq, Cert.ReferenceIdeal.RefValue.v40_eq_Gh,
      a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v38_eq, Cert.ReferenceIdeal.RefValue.v38_eq_Gc,
      a0, a1, a2, a3, a4, a5, a6, a7, a8, a9, a10, a11, a12, a13, a14, a15, a16, a17, a18]
    rfl

end Cert.Proof.LstmClaims

namespace Cert.Proof

theorem claim : Cert.Claim :=
  ⟨Cert.Kernel.Gen.facts, Cert.KernelIdeal.Gen.facts, Cert.ReferenceIdeal.Gen.facts, Cert.Pre_finite_inputs.Gen.facts,
    LstmClaims.frame_k, LstmClaims.frame_ki, LstmClaims.frame_ri, LstmClaims.preserves, LstmClaims.algebraic⟩

end Cert.Proof

end
